-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S8 : Shape := ⟨1, ![8]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S8 : S_.BroadcastsInDim S8 (![] : Fin 0 → Fin S8.rank)
  reducesTo_S8_S_d0 : S8.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4096x8 .f32) (main_arg1 : FVec F S4096x8 .f32) (main_arg2 : FVec F S8 .f32) (main_arg3 : FVec F S_ .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4096x8 : Shape := ⟨2, ![4096, 8]⟩
abbrev S8 : Shape := ⟨1, ![8]⟩
abbrev S_ : Shape := ⟨0, ![]⟩
abbrev S1x8 : Shape := ⟨2, ![1, 8]⟩
abbrev S1x1 : Shape := ⟨2, ![1, 1]⟩
abbrev S4096x4096 : Shape := ⟨2, ![4096, 4096]⟩
abbrev S1024x8 : Shape := ⟨2, ![1024, 8]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 13
  | .vmem => 7
  | .smem => 0
  | _ => 0

abbrev bufTy : (tb : Table) → Fin (tcTables nBuf tb) → BufTy
  | .hbm, ⟨0, _⟩ => ⟨S4096x8, .f32⟩
  | .hbm, ⟨1, _⟩ => ⟨S4096x8, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S1x8, .f32⟩
  | .hbm, ⟨6, _⟩ => ⟨S4096x8, .f32⟩
  | .hbm, ⟨7, _⟩ => ⟨S4096x8, .f32⟩
  | .hbm, ⟨8, _⟩ => ⟨S1x8, .f32⟩
  | .hbm, ⟨9, _⟩ => ⟨S4096x8, .f32⟩
  | .hbm, ⟨10, _⟩ => ⟨S4096x8, .f32⟩
  | .hbm, ⟨11, _⟩ => ⟨S1x1, .f32⟩
  | .hbm, ⟨12, _⟩ => ⟨S4096x4096, .f32⟩
  | .local _ .vmem, ⟨0, _⟩ => ⟨S1024x8, .f32⟩
  | .local _ .vmem, ⟨1, _⟩ => ⟨S1024x8, .f32⟩
  | .local _ .vmem, ⟨2, _⟩ => ⟨S1024x8, .f32⟩
  | .local _ .vmem, ⟨3, _⟩ => ⟨S1024x8, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  shapeCasts_S_S1x1 : S_.ShapeCasts S1x1
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S1024x8_o0_0_S1024x1 : S1024x8.Slices ![0, 0] S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_4_S1024x1 : S1024x8.Slices ![0, 4] S1024x1
  slices_S1024x8_o0_5_S1024x1 : S1024x8.Slices ![0, 5] S1024x1
  slices_S1024x8_o0_6_S1024x1 : S1024x8.Slices ![0, 6] S1024x1
  slices_S1024x8_o0_7_S1024x1 : S1024x8.Slices ![0, 7] S1024x1
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S4096x8.size a
  hwx0_0 : ∀ i : grid0.Coords, EltTy.bits .f32 = 32 ∨ (Rect.block (s := S4096x8) S1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S4096x8.size a
  hwx0_1 : ∀ i : grid0.Coords, EltTy.bits .f32 = 32 ∨ (Rect.block (s := S4096x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

abbrev win0_0 : Pipeline.Window sig grid0 :=
  Pipeline.Window.ofSpec (Memref.whole main_v3) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8 : Shape := ⟨2, ![4096, 8]⟩
abbrev S8 : Shape := ⟨1, ![8]⟩
abbrev S_ : Shape := ⟨0, ![]⟩
abbrev S4096x1x8 : Shape := ⟨3, ![4096, 1, 8]⟩
abbrev S1x4096x8 : Shape := ⟨3, ![1, 4096, 8]⟩
abbrev S4096x4096x8 : Shape := ⟨3, ![4096, 4096, 8]⟩
abbrev S1x1x8 : Shape := ⟨3, ![1, 1, 8]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S4096x8, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S_, .f32⟩
  | .hbm, ⟨6, _⟩ => ⟨S4096x1x8, .f32⟩
  | .hbm, ⟨7, _⟩ => ⟨S1x4096x8, .f32⟩
  | .hbm, ⟨8, _⟩ => ⟨S4096x4096x8, .f32⟩
  | .hbm, ⟨9, _⟩ => ⟨S4096x4096x8, .f32⟩
  | .hbm, ⟨10, _⟩ => ⟨S4096x4096x8, .f32⟩
  | .hbm, ⟨11, _⟩ => ⟨S1x1x8, .f32⟩
  | .hbm, ⟨12, _⟩ => ⟨S4096x4096x8, .f32⟩
  | .hbm, ⟨13, _⟩ => ⟨S4096x4096x8, .f32⟩
  | .hbm, ⟨14, _⟩ => ⟨S4096x4096x8, .f32⟩
  | .hbm, ⟨15, _⟩ => ⟨S_, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S4096x8_S4096x1x8_0_2 : S4096x8.BroadcastsInDim S4096x1x8 (![0, 2] : Fin 2 → Fin S4096x1x8.rank)
  bcast_S4096x8_S1x4096x8_1_2 : S4096x8.BroadcastsInDim S1x4096x8 (![1, 2] : Fin 2 → Fin S1x4096x8.rank)
  bcast_S4096x1x8_S4096x4096x8_0_1_2 : S4096x1x8.BroadcastsInDim S4096x4096x8 (![0, 1, 2] : Fin 3 → Fin S4096x4096x8.rank)
  bcast_S1x4096x8_S4096x4096x8_0_1_2 : S1x4096x8.BroadcastsInDim S4096x4096x8 (![0, 1, 2] : Fin 3 → Fin S4096x4096x8.rank)
  bcast_S8_S1x1x8_2 : S8.BroadcastsInDim S1x1x8 (![2] : Fin 1 → Fin S1x1x8.rank)
  bcast_S1x1x8_S4096x4096x8_0_1_2 : S1x1x8.BroadcastsInDim S4096x4096x8 (![0, 1, 2] : Fin 3 → Fin S4096x4096x8.rank)
  reducesTo_S4096x4096x8_S4096x4096_d2 : S4096x4096x8.ReducesTo [2] S4096x4096
  h_S_ : 0 < S_.numel
  bcast_S_S4096x4096 : S_.BroadcastsInDim S4096x4096 (![] : Fin 0 → Fin S4096x4096.rank)

variable [Facts₀]

class Facts : Prop extends Facts₀ where

variable [Facts]
-- ==== Proof.RbfSpec.lean ====
/-
  The radial-basis covariance as ONE function of the argument arrays, and the one law that joins the two programs.

  Both programs compute, for points `x p` and `xx q` in eight coordinates, a per-coordinate length scale `exp (ls d)`
  and a variance `exp lv`,
      cov (p, q) = exp (-1/2 · Σ_d t_d²) · exp lv.
  They differ in where the division by the length scale sits: the reference divides the difference,
  `t_d = (x p d - xx q d) / exp (ls d)`, while the kernel is handed the two point sets already divided,
  `t_d = x p d / exp (ls d) - xx q d / exp (ls d)`, and adds the eight squares one after the other onto a zero.
  Division distributes over a difference only off the infinities, so the law (`K_eq_G`) is stated for arrays whose entries
  are real numbers; the length scale `exp (ls d)` of a real `ls d` is then a nonzero real.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The word of `-0.5`, the same on both sides: never evaluated. -/
abbrev negHalf : EReal := Ideal.ofBits .f32 0xBF000000#32
/-- The zero word both accumulations start from. -/
abbrev zeroW : EReal := Ideal.ofBits .f32 0x00000000#32

/-- A point set divided, coordinate by coordinate, by the length scales `exp (ls d)`. -/
def scaled {n : Nat} (x : (⟨2, ![n, 8]⟩ : Shape).Idx → EReal) (ls : (⟨1, ![8]⟩ : Shape).Idx → EReal) :
    (⟨2, ![n, 8]⟩ : Shape).Idx → EReal :=
  fun i => Ideal.div (x i) (Ideal.exp (ls (ix1 (i 1))))

/-- The reference's term for coordinate `d`: the difference divided by the length scale, squared. -/
def sq (x xx : (⟨2, ![4096, 8]⟩ : Shape).Idx → EReal) (ls : (⟨1, ![8]⟩ : Shape).Idx → EReal) (p q : Fin 4096) (d : Fin 8) : EReal :=
  Ideal.div (x (ix2 p d) - xx (ix2 q d)) (Ideal.exp (ls (ix1 d))) * Ideal.div (x (ix2 p d) - xx (ix2 q d)) (Ideal.exp (ls (ix1 d)))

/-- THE RESULT: the covariance matrix as a function of the four arguments, index by index. -/
def G (x xx : (⟨2, ![4096, 8]⟩ : Shape).Idx → EReal) (ls : (⟨1, ![8]⟩ : Shape).Idx → EReal) (lv : (⟨0, ![]⟩ : Shape).Idx → EReal) :
    (⟨2, ![4096, 4096]⟩ : Shape).Idx → EReal :=
  fun i => Ideal.exp (negHalf * (zeroW + ∑ d : Fin 8, sq x xx ls (i 0) (i 1) d)) * Ideal.exp (lv ix0)

/-- The kernel's term for coordinate `d` of two point sets `a`, `b` (already divided): the difference squared. -/
def dsq {n k : Nat} (a : (⟨2, ![n, 8]⟩ : Shape).Idx → EReal) (b : (⟨2, ![k, 8]⟩ : Shape).Idx → EReal) (p : Fin n) (q : Fin k) (d : Fin 8) : EReal :=
  (a (ix2 p d) - b (ix2 q d)) * (a (ix2 p d) - b (ix2 q d))

/-- The kernel's formula at `(p, q)`: the eight squares added in order onto the zero, scaled, exponentiated, times the
    variance `exp e`. -/
def K {n k : Nat} (a : (⟨2, ![n, 8]⟩ : Shape).Idx → EReal) (b : (⟨2, ![k, 8]⟩ : Shape).Idx → EReal) (e : EReal) (p : Fin n) (q : Fin k) : EReal :=
  Ideal.exp (negHalf * (zeroW + dsq a b p q 0 + dsq a b p q 1 + dsq a b p q 2 + dsq a b p q 3 + dsq a b p q 4
    + dsq a b p q 5 + dsq a b p q 6 + dsq a b p q 7)) * Ideal.exp e

/-- The kernel's formula reads only row `p` of the first point set and row `q` of the second: two pairs of point sets
    that agree on those rows (a block and the array it was cut from) give the same value. -/
theorem K_congr {n k n' k' : Nat} (a : (⟨2, ![n, 8]⟩ : Shape).Idx → EReal) (a' : (⟨2, ![n', 8]⟩ : Shape).Idx → EReal)
    (b : (⟨2, ![k, 8]⟩ : Shape).Idx → EReal) (b' : (⟨2, ![k', 8]⟩ : Shape).Idx → EReal) (e e' : EReal)
    (p : Fin n) (p' : Fin n') (q : Fin k) (q' : Fin k')
    (ha : ∀ d : Fin 8, a (ix2 p d) = a' (ix2 p' d)) (hb : ∀ d : Fin 8, b (ix2 q d) = b' (ix2 q' d)) (he : e = e') :
    K a b e p q = K a' b' e' p' q' := by
  unfold K dsq
  simp only [ha, hb, he]

/-- Eight terms added in order onto `z` are `z` plus their sum. -/
theorem fold8 (z : EReal) (t : Fin 8 → EReal) :
    z + t 0 + t 1 + t 2 + t 3 + t 4 + t 5 + t 6 + t 7 = z + ∑ d : Fin 8, t d := by
  rw [Fin.sum_univ_eight]
  simp only [add_assoc]

/-- For real numbers and a real log-scale, dividing each by the length scale and subtracting is dividing the difference. -/
theorem div_sub_div (a b l : ℝ) :
    Ideal.div (a : EReal) (Ideal.exp (l : EReal)) - Ideal.div (b : EReal) (Ideal.exp (l : EReal))
      = Ideal.div ((a : EReal) - (b : EReal)) (Ideal.exp (l : EReal)) := by
  have hne : Real.exp l ≠ 0 := Real.exp_ne_zero l
  rw [Ideal.exp_coe, Ideal.div_coe hne, Ideal.div_coe hne, Ideal.div_coe hne,
    ← EReal.coe_mul, ← EReal.coe_mul, ← EReal.coe_sub, ← EReal.coe_sub, ← EReal.coe_mul]
  congr 1
  ring

/-- THE LAW. On arrays of real numbers the kernel's formula over the divided point sets is the result. -/
theorem K_eq_G (x xx : (⟨2, ![4096, 8]⟩ : Shape).Idx → EReal) (ls : (⟨1, ![8]⟩ : Shape).Idx → EReal) (lv : (⟨0, ![]⟩ : Shape).Idx → EReal)
    (hx : ∀ i, ∃ r : ℝ, x i = (r : EReal)) (hxx : ∀ i, ∃ r : ℝ, xx i = (r : EReal)) (hls : ∀ i, ∃ r : ℝ, ls i = (r : EReal))
    (p q : Fin 4096) :
    K (scaled x ls) (scaled xx ls) (lv ix0) p q = G x xx ls lv (ix2 p q) := by
  have hterm : ∀ d : Fin 8, dsq (scaled x ls) (scaled xx ls) p q d = sq x xx ls p q d := by
    intro d
    obtain ⟨a, ha⟩ := hx (ix2 p d)
    obtain ⟨b, hb⟩ := hxx (ix2 q d)
    obtain ⟨l, hl⟩ := hls (ix1 d)
    unfold dsq sq scaled
    show (Ideal.div (x (ix2 p d)) (Ideal.exp (ls (ix1 d))) - Ideal.div (xx (ix2 q d)) (Ideal.exp (ls (ix1 d))))
        * (Ideal.div (x (ix2 p d)) (Ideal.exp (ls (ix1 d))) - Ideal.div (xx (ix2 q d)) (Ideal.exp (ls (ix1 d)))) = _
    rw [ha, hb, hl, div_sub_div]
  unfold K G
  rw [fold8 zeroW (fun d => dsq (scaled x ls) (scaled xx ls) p q d)]
  simp only [hterm]

end Cert.Rbf

end
-- ==== Proof.RbfFinite.lean ====
/-
  The precondition read back: it is the conjunction, over all four inputs, of "every entry's absolute value is below
  +∞". An extended real whose absolute value `max x (-x)` is below `⊤` is neither infinity, so it is a real number.
  Used for the two point sets and the log-scales, which the law joining the two programs needs real.
-/
import proofs.«147170_j17695265259742_1_alg».proof.Proof.Gen.Pre_finite_inputs
import Idealize.ShloMosaic.Lib.ReduceAll
import Idealize.ShloMosaic.Lib.ValueIdx
import Idealize.ShloMosaic.PureOps.Ideal

noncomputable section

namespace Cert.Rbf.Finite

open Cert.Pre_finite_inputs Idealize.ShloMosaic Idealize.ShloMosaic.ValueIdx

/-- The scalar shape has one index. -/
instance : Subsingleton S_.Idx := ⟨fun _ _ => funext fun d => d.elim0⟩

/-- The word `0x7F800000` is `+∞`. -/
theorem ofBits_inf : Ideal.ofBits .f32 0x7F800000#32 = ⊤ := by simp [Ideal.ofBits, Ideal.ieee]

/-- An extended real whose absolute value compares below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have hd : decide (max x (-x) < (⊤ : EReal)) = false := decide_eq_false hn
    simp only [Ideal.cmp, hd] at h
    exact absurd h (by decide)
  induction x using EReal.rec with
  | bot => simp at hlt
  | coe r => exact ⟨r, rfl⟩
  | top => simp at hlt

/-- THE PRECONDITION GIVES REAL ENTRIES: of both point sets and of the log-scales. -/
theorem real_of_pre (a0 a1 : FVec Ideal S4096x8 .f32) (a2 : FVec Ideal S8 .f32) (a3 : FVec Ideal S_ .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1] at h0
  obtain ⟨h13, -⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_⟩
  · exact real_of_abs_lt _ (Host.reduce_andi_all _ _ _ _ _ h3 i)
  · exact real_of_abs_lt _ (Host.reduce_andi_all _ _ _ _ _ h7 i)
  · exact real_of_abs_lt _ (Host.reduce_andi_all _ _ _ _ _ h12 i)

end Cert.Rbf.Finite

end
-- ==== Proof.RbfBody.lean ====
/-
  What the kernel body stores into its `[1024, 1024]` output block, entry by entry.

  For each of the eight coordinates `d` the body cuts column `d` out of both `[1024, 8]` input blocks, lays the first
  along the rows (entry `(p, q)` reads row `p`) and the second, transposed, along the columns (entry `(p, q)` reads row
  `q`), subtracts, squares and adds onto the running sum that starts at zero; the sum is scaled by `-1/2`,
  exponentiated and multiplied by the exponential of the third block's one entry. At entry `(p, q)` that is the
  formula `K` of the two blocks' rows `p` and `q`.
-/
import proofs.«147170_j17695265259742_1_alg».proof.Proof.Gen.KernelIdeal.Frame
import proofs.«147170_j17695265259742_1_alg».proof.Proof.RbfSpec
import Idealize.ShloMosaic.Lib.Pipeline.Value
import Idealize.ShloMosaic.Lib.ValueLayout
import Idealize.ShloMosaic.Lib.ValueIdx

noncomputable section

namespace Cert.Rbf.Body

open Cert.KernelIdeal Cert.KernelIdeal.Gen Idealize.ShloMosaic Idealize.ShloMosaic.ValueIdx Cert.Rbf

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One coordinate's difference, read at `(p, q)`: column `k` of the first block at row `p`, broadcast along the
    rows, minus column `k` of the second block at row `q`, transposed into a row and broadcast down the columns. -/
theorem coord_diff (x0 x1 : FVec Ideal S1024x8 .f32) (o : Nat)
    (hs : S1024x8.Slices ![0, o] S1024x1) (ht : S1024x1.Transposes [1, 0] S1x1024)
    (hc : S1024x1.Broadcasts S1024x1024) (hr : S1x1024.Broadcasts S1024x1024)
    (k : Fin 8) (hk : k.val = o) (p q : Fin 1024) :
    subf (broadcastTo S1024x1024 (extractStridedSlice S1024x1 ![0, o] x0 hs) hc)
      (broadcastTo S1024x1024 (transpose S1x1024 [1, 0] (extractStridedSlice S1024x1 ![0, o] x1 hs) ht) hr) (ix2 p q)
      = x0 (ix2 p k) - x1 (ix2 q k) := by
  rw [subf_apply, broadcastTo_a1_ab_apply, broadcastTo_1b_ab_apply, transpose_ix2_apply,
    slice2_axis1_apply o x0 hs p (0 : Fin 1) k (by rw [hk]; rfl), slice2_axis1_apply o x1 hs q (0 : Fin 1) k (by rw [hk]; rfl)]

/-- The zero offsets of a whole-block access, as a constant function. -/
theorem hz : (![0, 0] : Fin 2 → Nat) = fun _ => 0 := funext fun a => by fin_cases a <;> rfl

/-- A vector exponential read at an index. -/
theorem vexp_apply {s : Shape} {φ : FTy} (x : FVec Ideal s φ) (i : s.Idx) : exp x i = Ideal.exp (x i) := rfl

/-- The one entry of a `[1, 1]` block. -/
theorem extractAt_00 {α : Type} (x : S1x1.Idx → α) (h : ∀ a, (![0, 0] : Fin 2 → Nat) a < S1x1.size a) :
    extractAt ![0, 0] x h = x (ix2 (0 : Fin 1) (0 : Fin 1)) :=
  congrArg x (funext fun a => by match a with | ⟨0, _⟩ => rfl | ⟨1, _⟩ => rfl)

/-- WHAT THE BODY STORES, at entry `(p, q)` of its output block: the kernel's formula `K` of the two input blocks'
    rows `p` and `q` and the one entry of the third. -/
theorem out_apply (x0 x1 : Vec Ideal S1024x8 .f32) (x2 : Vec Ideal S1x1 .f32) (p q : Fin 1024) :
    out0_3 x0 x1 x2 (ix2 p q) = K x0 x1 (x2 (ix2 (0 : Fin 1) (0 : Fin 1))) p q := by
  unfold out0_3
  rw [View.canon_unit_zero hz]
  simp only [View.ld_unit_zero (S := S1024x8) hz, View.ld_unit_zero (S := S1x1) hz]
  unfold k0_pay1 k0_pay5 k0_pay6 k0_pay7 k0_pay4 k0_pay2 k0_pay3
  simp only [shapeCast_self]
  simp only [mulf_apply, addf_apply, vexp_apply, broadcast_apply, extractAt_00,
    coord_diff _ _ 0 _ _ _ _ (0 : Fin 8) rfl, coord_diff _ _ 1 _ _ _ _ (1 : Fin 8) rfl,
    coord_diff _ _ 2 _ _ _ _ (2 : Fin 8) rfl, coord_diff _ _ 3 _ _ _ _ (3 : Fin 8) rfl,
    coord_diff _ _ 4 _ _ _ _ (4 : Fin 8) rfl, coord_diff _ _ 5 _ _ _ _ (5 : Fin 8) rfl,
    coord_diff _ _ 6 _ _ _ _ (6 : Fin 8) rfl, coord_diff _ _ 7 _ _ _ _ (7 : Fin 8) rfl]
  rfl

end Cert.Rbf.Body

end
-- ==== Proof.RbfHost.lean ====
/-
  What the region finds in the three arrays it stages: the host operations before it divide each point set by the
  length scales `exp (ls d)` (the log-scales exponentiated, laid out as one row and repeated down the 4096 rows) and cast the
  scalar log-variance to a `[1, 1]` array. Read at an index these are `scaled x ls`, `scaled xx ls` and `lv`.
-/
import proofs.«147170_j17695265259742_1_alg».proof.Proof.Gen.KernelIdeal.Frame
import proofs.«147170_j17695265259742_1_alg».proof.Proof.RbfSpec
import Idealize.ShloMosaic.Lib.StableHlo.Run
import Idealize.ShloMosaic.Lib.Pipeline.Value
import Idealize.ShloMosaic.Lib.ValueIdx

noncomputable section

namespace Cert.Rbf.HostSide

open Cert.KernelIdeal Cert.KernelIdeal.Gen Idealize.ShloMosaic Idealize.ShloMosaic.TcCoe Idealize.SL.Sem
open Idealize.ShloMosaic.ValueIdx Idealize.ShloMosaic.StableHlo Cert.Rbf

/-- A point set divided by the exponentiated log-scales, the scales broadcast first to one row and then to every row,
    is `scaled`: entry `(r, d)` is divided by `exp (ls d)`. -/
theorem divf_bcast_eq_scaled (x : FVec Ideal S4096x8 .f32) (ls : FVec Ideal S8 .f32) :
    Host.divf x (broadcastInDim S4096x8 ![0, 1] bcast_S1x8_S4096x8_0_1 (broadcastInDim S1x8 ![1] bcast_S8_S1x8_1 (Host.exp ls)))
      = scaled x ls := by
  funext i
  show Ideal.div (x i) (broadcastInDim S4096x8 ![0, 1] bcast_S1x8_S4096x8_0_1 (broadcastInDim S1x8 ![1] bcast_S8_S1x8_1 (Host.exp ls)) i) = _
  rw [broadcastInDim_apply _ bcast_S1x8_S4096x8_0_1 _ i (ix2 (0 : Fin 1) (i 1)) (fun a => by
      match a with
      | ⟨0, _⟩ => rfl
      | ⟨1, _⟩ => show (i 1).val = if (8 : Nat) = 1 then 0 else (i 1).val; rw [if_neg (by decide)]),
    broadcastInDim_apply _ bcast_S8_S1x8_1 _ (ix2 (0 : Fin 1) (i 1)) (ix1 (i 1)) (fun a => by
      match a with
      | ⟨0, _⟩ => show (i 1).val = if (8 : Nat) = 1 then 0 else (i 1).val; rw [if_neg (by decide)])]
  rfl

variable (m : (ℓ : Loc nD τ sig) → Buf (Elt Ideal) ℓ)

/-- The first staged array: the first point set divided by the length scales. -/
theorem V_v3 (c : Dev nD) :
    (V m c main_v3 : S4096x8.Idx → EReal) = scaled (m ((c : Thread nD τ).loc main_arg0)) (m ((c : Thread nD τ).loc main_arg2)) := by
  rw [← divf_bcast_eq_scaled]
  dsimp only [Gen.V, Gen.hostOps0]; after_results

/-- The second staged array: the second point set divided by the length scales. -/
theorem V_v6 (c : Dev nD) :
    (V m c main_v6 : S4096x8.Idx → EReal) = scaled (m ((c : Thread nD τ).loc main_arg1)) (m ((c : Thread nD τ).loc main_arg2)) := by
  rw [← divf_bcast_eq_scaled]
  dsimp only [Gen.V, Gen.hostOps0]; after_results

/-- The third staged array's one entry is the log-variance. -/
theorem V_v7 (c : Dev nD) :
    (V m c main_v7 : S1x1.Idx → EReal) (ix2 (0 : Fin 1) (0 : Fin 1)) = (m ((c : Thread nD τ).loc main_arg3) : S_.Idx → EReal) ix0 := by
  have e : (V m c main_v7 : S1x1.Idx → EReal) = shapeCast S1x1 (m ((c : Thread nD τ).loc main_arg3)) shapeCasts_S_S1x1 := by
    dsimp only [Gen.V, Gen.hostOps0]; after_results; rfl
  rw [e]
  exact shapeCast_apply _ shapeCasts_S_S1x1 _ _ (by decide)

end Cert.Rbf.HostSide

end
-- ==== Proof.RbfBlocks.lean ====
/-
  From blocks to the array. The grid is 4 × 4; at point `(I, J)` the kernel is handed rows `1024·I …` of the first
  divided point set, rows `1024·J …` of the second and the one log-variance entry, and writes block `(I, J)` of the
  `[4096, 4096]` result. Entry `(p, q)` of that block is the kernel's formula of rows `1024·I + p` and `1024·J + q` of
  the whole divided point sets, which on real inputs is the result function `G` at `(1024·I + p, 1024·J + q)`; the sixteen
  blocks cover the array (entry `(r, s)` lies in block `(r / 1024, s / 1024)`), so the array ends holding `G`.
-/
import proofs.«147170_j17695265259742_1_alg».proof.Proof.Gen.KernelIdeal.Value
import proofs.«147170_j17695265259742_1_alg».proof.Proof.RbfSpec
import proofs.«147170_j17695265259742_1_alg».proof.Proof.RbfBody
import proofs.«147170_j17695265259742_1_alg».proof.Proof.RbfHost
import Idealize.ShloMosaic.Lib.Pipeline.Value
import Idealize.ShloMosaic.Lib.ValueIdx

noncomputable section

namespace Cert.Rbf.Blocks

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg)

/-- The result function of the four arguments as launched on core `c`. -/
abbrev Gm (c : Dev nD) : S4096x4096.Idx → EReal :=
  G (m ((c : Thread nD τ).loc main_arg0)) (m ((c : Thread nD τ).loc main_arg1)) (m ((c : Thread nD τ).loc main_arg2))
    (m ((c : Thread nD τ).loc main_arg3))

/-- The arguments' entries are real numbers (what the precondition gives). -/
def RealArgs (c : Dev nD) : Prop :=
  (∀ i, ∃ r : ℝ, (m ((c : Thread nD τ).loc main_arg0) : S4096x8.Idx → EReal) i = (r : EReal))
  ∧ (∀ i, ∃ r : ℝ, (m ((c : Thread nD τ).loc main_arg1) : S4096x8.Idx → EReal) i = (r : EReal))
  ∧ (∀ i, ∃ r : ℝ, (m ((c : Thread nD τ).loc main_arg2) : S8.Idx → EReal) i = (r : EReal))

/-- The printed index maps over the grid: the first input follows the output's row block, the second its column
    block, both at column block 0; the third stays at block `(0, 0)`; the output's block indices are below 4. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) ≤ 3 ∧ win0_3.index t (1 : Fin 2) ≤ 3 :=
  (by decide +kernel : ∀ t : Fin grid0.N, _)

/-- Every one of the 4 × 4 output blocks is some grid point's. -/
theorem idx_onto : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- WHAT POINT `t` WRITES BACK is block `t` of the result function, on real arguments. -/
theorem flushed_eq (c : Dev nD) (hr : RealArgs m c) (t : Fin cfg0.N) :
    (dats m 0 c).flushed 3 t = ((cfg0.win 3).blk t).view.read (Elt Ideal) (Gm m c) := by
  obtain ⟨hx, hxx, hls⟩ := hr
  rw [Value.flushed3]
  obtain ⟨e00, e01, e10, e11, e20, e21, b0, b1⟩ := idx_facts t
  funext j
  obtain ⟨p, q, rfl⟩ : ∃ (p q : Fin 1024), j = ix2 p q := ⟨j 0, j 1, eq_ix2 j⟩
  have hP : win0_3.index t (0 : Fin 2) * 1024 + p.val < 4096 := by have := p.isLt; omega
  have hQ : win0_3.index t (1 : Fin 2) * 1024 + q.val < 4096 := by have := q.isLt; omega
  show out0_3 (iblk m c 0 t) (iblk m c 1 t) (iblk m c 2 t) (ix2 p q) = Gm m c (((cfg0.win 3).blk t).view.emb (ix2 p q))
  refine (Body.out_apply (iblk m c 0 t) (iblk m c 1 t) (iblk m c 2 t) p q).trans ?_
  refine (K_congr (n := 1024) (k := 1024) (n' := 4096) (k' := 4096) (iblk m c 0 t) (V m c main_v3) (iblk m c 1 t) (V m c main_v6)
    (iblk m c 2 t (ix2 (0 : Fin 1) (0 : Fin 1))) ((V m c main_v7 : S1x1.Idx → EReal) (ix2 (0 : Fin 1) (0 : Fin 1)))
    p ⟨_, hP⟩ q ⟨_, hQ⟩ ?_ ?_ ?_).trans ?_
  · intro d
    show V m c main_v3 (((cfg0.win 0).blk t).view.emb (ix2 p d)) = V m c main_v3 (ix2 ⟨_, hP⟩ d)
    refine congrArg (V m c main_v3) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 8 + 1 * d.val = d.val; omega
  · intro d
    show V m c main_v6 (((cfg0.win 1).blk t).view.emb (ix2 q d)) = V m c main_v6 (ix2 ⟨_, hQ⟩ d)
    refine congrArg (V m c main_v6) (funext fun a => Fin.ext ?_)
    match a with
    | ⟨0, _⟩ => show win0_1.index t (0 : Fin 2) * 1024 + 1 * q.val = win0_3.index t (1 : Fin 2) * 1024 + q.val; omega
    | ⟨1, _⟩ => show win0_1.index t (1 : Fin 2) * 8 + 1 * d.val = d.val; omega
  · show V m c main_v7 (((cfg0.win 2).blk t).view.emb (ix2 (0 : Fin 1) (0 : Fin 1))) = V m c main_v7 (ix2 (0 : Fin 1) (0 : Fin 1))
    refine congrArg (V m c main_v7) (funext fun a => Fin.ext ?_)
    match a with
    | ⟨0, _⟩ => show win0_2.index t (0 : Fin 2) * 1 + 1 * 0 = 0; omega
    | ⟨1, _⟩ => show win0_2.index t (1 : Fin 2) * 1 + 1 * 0 = 0; omega
  · rw [HostSide.V_v3 m c, HostSide.V_v6 m c, HostSide.V_v7 m c, K_eq_G _ _ _ _ hx hxx hls]
    refine congrArg (Gm m c) (funext fun a => Fin.ext ?_)
    match a with
    | ⟨0, _⟩ => show win0_3.index t (0 : Fin 2) * 1024 + p.val = win0_3.index t (0 : Fin 2) * 1024 + 1 * p.val; omega
    | ⟨1, _⟩ => show win0_3.index t (1 : Fin 2) * 1024 + q.val = win0_3.index t (1 : Fin 2) * 1024 + 1 * q.val; omega

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v8).slice (win0_3.rect t)).set ↔ _
  rw [View.set_slice_whole, Rect.mem_set_unit]
  exact Iff.rfl

/-- THE COVER: entry `(r, s)` lies in the block of the point whose block index is `(r / 1024, s / 1024)`. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE ARRAY after the run is the result function of the arguments. -/
theorem final (c : Dev nD) (hr : RealArgs m c) : (dats m 0 c).arrAt 3 cfg0.N = Gm m c :=
  (dats m 0 c).arrAt_eq_of_cover 3 (Gm m c) (fun t _ => flushed_eq m c hr t) cover

/-- THE KERNEL'S RUN, read: on real arguments every fair execution ends with the result array at `G` of the
    arguments and the arguments unchanged. -/
theorem run (hr : ∀ c, RealArgs m c) : θ_run defs (onTc (τ := τ) (main (F := Ideal))) ⟨m, fun _ => 0, ρ⟩ fun r => ∀ c : Dev nD,
      r.2.mem ((c : Thread nD τ).loc main_v8) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (Value.run_blocks m ρ)

end Cert.Rbf.Blocks

end
-- ==== Proof.RbfRef.lean ====
/-
  The reference's result, read one operation at a time, is the result function `G`: at `(p, q)` the eight quotients
  `(x p d - xx q d) / exp (ls d)` are squared and summed onto zero, scaled by `-1/2`, exponentiated, and multiplied by
  the variance `exp lv`. Nothing is rearranged: the reference is the specification's own order of operations.
-/
import proofs.«147170_j17695265259742_1_alg».proof.Proof.Gen.ReferenceIdeal.Read
import proofs.«147170_j17695265259742_1_alg».proof.Proof.RbfSpec
import Idealize.ShloMosaic.Lib.ValueIdx

noncomputable section

namespace Cert.Rbf.RefSide

open Cert.ReferenceIdeal Cert.ReferenceIdeal.Read Idealize.ShloMosaic Idealize.ShloMosaic.ValueIdx Cert.Rbf

/-- The first point set's entry that the summand `(p, q, k)` reads, through its two broadcasts: `(p, k)`. -/
theorem idx_x (p q : Fin 4096) (k : Fin 8) : idx_main_v2 (idx_main_v4 (idx_main_v11 (ix2 p q) k)) = ix2 p k :=
  funext fun a => by match a with | ⟨0, _⟩ => rfl | ⟨1, _⟩ => rfl
/-- The second point set's entry: `(q, k)`. -/
theorem idx_xx (p q : Fin 4096) (k : Fin 8) : idx_main_v3 (idx_main_v5 (idx_main_v11 (ix2 p q) k)) = ix2 q k :=
  funext fun a => by match a with | ⟨0, _⟩ => rfl | ⟨1, _⟩ => rfl
/-- The log-scale's entry: `k`. -/
theorem idx_ls (p q : Fin 4096) (k : Fin 8) : idx_main_v7 (idx_main_v8 (idx_main_v11 (ix2 p q) k)) = ix1 k :=
  funext fun a => by match a with | ⟨0, _⟩ => rfl

/-- THE REFERENCE IS THE RESULT FUNCTION. -/
theorem ref_eq_G (x0 x1 : (⟨S4096x8, .f32⟩ : BufTy).Contents (Elt Ideal)) (x2 : (⟨S8, .f32⟩ : BufTy).Contents (Elt Ideal))
    (x3 : (⟨S_, .f32⟩ : BufTy).Contents (Elt Ideal)) :
    val_main_v16 (F := Ideal) x0 x1 x2 x3 = G x0 x1 x2 x3 := by
  funext i
  obtain ⟨p, q, rfl⟩ : ∃ (p q : Fin 4096), i = ix2 p q := ⟨i 0, i 1, eq_ix2 i⟩
  rw [val_main_v16_apply, val_main_v14_apply, val_main_v13_apply, val_main_v12_apply, val_main_cst_0_apply,
    val_main_v11_apply, val_main_cst_apply, val_main_v15_apply, val_main_v1_apply]
  simp only [val_main_v10_apply, val_main_v9_apply, val_main_v6_apply, val_main_v4_apply, val_main_v2_apply,
    val_main_v5_apply, val_main_v3_apply, val_main_v8_apply, val_main_v7_apply, val_main_v0_apply,
    idx_x, idx_xx, idx_ls]
  rfl

end Cert.Rbf.RefSide

end
-- ==== Proof.lean ====
/-
  The radial-basis covariance kernel against its reference, over the extended reals.

  Both programs compute `cov (p, q) = exp (-1/2 · Σ_d t_d²) · exp lv` over eight coordinates. The reference forms
  `t_d = (x p d - xx q d) / exp (ls d)`; the kernel is handed both point sets already divided by the length scales and forms
  `t_d = x p d / exp (ls d) - xx q d / exp (ls d)`, adding the squares in order onto zero, one `[1024, 1024]` block of the
  result per grid point. The two agree because division by a nonzero real distributes over a difference of reals
  (Proof/RbfSpec.lean, `K_eq_G`): that is where the precondition is used (Proof/RbfFinite.lean: finite inputs are real, and
  the exponential of a real log-scale is a nonzero real). The sum's grouping is immaterial on the extended reals.

  The pieces: the result function `G` and the law (RbfSpec); what the body stores at an entry of its block (RbfBody); what
  the host operations before the region leave in the staged arrays (RbfHost); the sixteen blocks assembled into the array
  (RbfBlocks); the reference read operation by operation (RbfRef). The frames are the generated ones; the reference's
  frame is its run with the result dropped. The idealization rewrote nothing, so `preserves` is trivial.
-/
import proofs.«147170_j17695265259742_1_alg».proof.Defs
import proofs.«147170_j17695265259742_1_alg».proof.Proof.Gen.Kernel
import proofs.«147170_j17695265259742_1_alg».proof.Proof.Gen.Kernel.Skeleton
import proofs.«147170_j17695265259742_1_alg».proof.Proof.Gen.Kernel.Launch
import proofs.«147170_j17695265259742_1_alg».proof.Proof.Gen.Kernel.Points
import proofs.«147170_j17695265259742_1_alg».proof.Proof.Gen.Kernel.Frame
import proofs.«147170_j17695265259742_1_alg».proof.Proof.Gen.KernelIdeal
import proofs.«147170_j17695265259742_1_alg».proof.Proof.Gen.KernelIdeal.Skeleton
import proofs.«147170_j17695265259742_1_alg».proof.Proof.Gen.KernelIdeal.Launch
import proofs.«147170_j17695265259742_1_alg».proof.Proof.Gen.KernelIdeal.Points
import proofs.«147170_j17695265259742_1_alg».proof.Proof.Gen.KernelIdeal.Frame
import proofs.«147170_j17695265259742_1_alg».proof.Proof.Gen.ReferenceIdeal
import proofs.«147170_j17695265259742_1_alg».proof.Proof.Gen.Pre_finite_inputs
import proofs.«147170_j17695265259742_1_alg».proof.Proof.Gen.KernelIdeal.Value
import proofs.«147170_j17695265259742_1_alg».proof.Proof.Gen.ReferenceIdeal.Run
import proofs.«147170_j17695265259742_1_alg».proof.Proof.Gen.ReferenceIdeal.Read
import proofs.«147170_j17695265259742_1_alg».proof.Proof.RbfSpec
import proofs.«147170_j17695265259742_1_alg».proof.Proof.RbfFinite
import proofs.«147170_j17695265259742_1_alg».proof.Proof.RbfBlocks
import proofs.«147170_j17695265259742_1_alg».proof.Proof.RbfRef
import Idealize.ShloMosaic.Adequacy
import Idealize.ShloMosaic.Init

noncomputable section

namespace Cert.Proof

open Idealize.ShloMosaic Idealize.ShloMosaic.TcCoe Idealize.SL.Sem

/-- The kernel as printed runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On finite inputs both programs end with the result array at the result function `G` of the arguments: the kernel
    block by block through the law for real entries, the reference by reading its operations in order. -/
theorem algebraic : Cert.algebraic_KernelIdeal_ReferenceIdeal := by
  intro m ρ m' ρ' hpre hagree
  have hr : ∀ c, Cert.Rbf.Blocks.RealArgs m c := fun c => Cert.Rbf.Finite.real_of_pre _ _ _ _ (hpre c)
  refine ⟨fun c => Cert.Rbf.Blocks.Gm m c, Cert.Rbf.Blocks.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Rbf.RefSide.ref_eq_G, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
